-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x128 : Shape := ⟨2, ![512, 128]⟩
abbrev S2048x128 : Shape := ⟨2, ![2048, 128]⟩
abbrev S512x1 : Shape := ⟨2, ![512, 1]⟩
abbrev S1x2048 : Shape := ⟨2, ![1, 2048]⟩
abbrev S512x2048 : Shape := ⟨2, ![512, 2048]⟩

abbrev nBuf : Space → Nat
  | .hbm => 11
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x128_S2048x128_S512x2048_1_1_0_0_n_n_wf : DotDims.WF S512x128 S2048x128 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x8192.size a
  hwx0_4 : ∀ i : grid0.Coords, EltTy.bits .f32 = 32 ∨ (Rect.block (s := S8192x8192) S512x2048.size (cc0_transform_4 i) (hinb0_4 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.SqDist.lean ====
/-
  The squared Euclidean distance between every row of one 8192 × 128 array and every row of another, as ONE
  function of the two arrays over the extended reals:
      d(n, m) = (|x_n|² + |y_m|²) − 2 · ⟨x_n, y_m⟩,
  where |a_r|² = z + Σ_k a(r,k) · a(r,k) (z the value of the word a row sum starts from) and
  ⟨x_n, y_m⟩ = Σ_k x(n,k) · y(m,k). The grouping — the two squared norms added first, the doubled inner product
  subtracted from their sum — is the one both programs compute in, so comparing them needs no law of the
  extended reals: each side is read operation by operation at an index and lands on this term.
-/
import Idealize.ShloMosaic.PureOps.Ideal
import Idealize.ShloMosaic.Lib.ValueIdx

noncomputable section

namespace Cert.SqDist

open Idealize.ShloMosaic Idealize.ShloMosaic.ValueIdx

/-- The shape of each argument: 8192 points with 128 coordinates each. -/
abbrev Pts : Shape := ⟨2, ![8192, 128]⟩
/-- The shape of the result: one entry for every pair (point of the first array, point of the second). -/
abbrev Pairs : Shape := ⟨2, ![8192, 8192]⟩

/-- The squared norm of row `r` of `A`: the sum over the 128 coordinates of the squares, started from the value of
    the zero word (kept as the word's value: both programs start their row sums from that same word). -/
def rowSq (A : Pts.Idx → EReal) (r : Fin 8192) : EReal :=
  Ideal.ofBits .f32 0x00000000#32 + ∑ k : Fin 128, A (ix2 r k) * A (ix2 r k)

/-- The inner product of row `n` of `X` with row `m` of `Y`. -/
def inner (X Y : Pts.Idx → EReal) (n m : Fin 8192) : EReal :=
  ∑ k : Fin 128, X (ix2 n k) * Y (ix2 m k)

/-- The squared distance of row `n` of `X` from row `m` of `Y`, by the expansion
    |x − y|² = |x|² + |y|² − 2⟨x, y⟩; the factor 2 is the value of the word 0x40000000 both programs multiply by. -/
def sqDist (X Y : Pts.Idx → EReal) : Pairs.Idx → EReal := fun i =>
  (rowSq X (i 0) + rowSq Y (i 1)) - Ideal.ofBits .f32 0x40000000#32 * inner X Y (i 0) (i 1)

end Cert.SqDist

end
-- ==== Proof.RefDist.lean ====
/-
  The reference computes the squared-distance function: its last operation's value, read one operation at a time
  at an index (n, m) — the subtraction, the sum of the two broadcast squared norms (each a row sum of squares read
  through two broadcasts back to row n, resp. row m), the product of the broadcast 2 with the contraction of row n
  of the first argument against row m of the second — is `SqDist.sqDist` there.
-/
import proofs.«144518_j11630771438032_1_alg».proof.Proof.Gen.ReferenceIdeal.Read
import proofs.«144518_j11630771438032_1_alg».proof.Proof.SqDist

noncomputable section

namespace Cert.ReferenceIdeal.RefDist

open Cert.ReferenceIdeal Cert.ReferenceIdeal.Read Idealize.ShloMosaic Idealize.ShloMosaic.ValueIdx

/-- The reference's result is the squared-distance function of its two arguments, index by index. -/
theorem result_eq (X Y : (⟨S8192x128, .f32⟩ : BufTy).Contents (Elt Ideal)) :
    val_main_v12 (F := Ideal) X Y = Cert.SqDist.sqDist X Y := by
  funext i
  -- the row the first squared norm is read at: through the two broadcasts the index (n, m) goes back to row n
  have e1 : ∀ k : Fin 128, idx_main_v1 (idx_main_v5 (idx_main_v7 i)) k = ix2 (i 0) k := fun k =>
    funext fun a => Fin.ext (by match a with | ⟨0, _⟩ => rfl | ⟨1, _⟩ => rfl)
  -- and the second squared norm at row m
  have e3 : ∀ k : Fin 128, idx_main_v3 (idx_main_v6 (idx_main_v8 i)) k = ix2 (i 1) k := fun k =>
    funext fun a => Fin.ext (by match a with | ⟨0, _⟩ => rfl | ⟨1, _⟩ => rfl)
  -- the contraction pairs row n of the first argument with row m of the second
  have el : ∀ k : Fin 128, lidx_main_v4 i k = ix2 (i 0) k := fun k =>
    funext fun a => Fin.ext (by match a with | ⟨0, _⟩ => rfl | ⟨1, _⟩ => rfl)
  have er : ∀ k : Fin 128, ridx_main_v4 i k = ix2 (i 1) k := fun k =>
    funext fun a => Fin.ext (by match a with | ⟨0, _⟩ => rfl | ⟨1, _⟩ => rfl)
  rw [val_main_v12_apply, val_main_v9_apply, val_main_v7_apply, val_main_v5_apply, val_main_v1_apply,
    val_main_v8_apply, val_main_v6_apply, val_main_v3_apply, val_main_v11_apply, val_main_v10_apply,
    val_main_v4_apply]
  simp only [val_main_v0_apply, val_main_v2_apply, val_main_cst_apply, val_main_cst_0_apply, val_main_cst_1_apply,
    e1, e3, el, er, Ideal.mulf_def, Ideal.addf_def, Ideal.subf_def, Ideal.ofBits_def]
  rfl

end Cert.ReferenceIdeal.RefDist

end
-- ==== Proof.KernelNorms.lean ====
/-
  What the kernel's region finds in its two small operands. Before the region @main squares each argument entry by
  entry, sums every row from the zero word, and lays the 8192 row sums out once as a column (8192 × 1, from the
  first argument) and once as a row (1 × 8192, from the second). Read at an index, the column at (r, 0) and the row
  at (0, r) are the squared norm of row r of the respective argument.
-/
import proofs.«144518_j11630771438032_1_alg».proof.Proof.Gen.KernelIdeal.Frame
import proofs.«144518_j11630771438032_1_alg».proof.Proof.SqDist
import Idealize.ShloMosaic.Lib.Pipeline.Value
import Idealize.ShloMosaic.Lib.StableHlo.Run
import Idealize.ShloMosaic.PureOps.Ideal.Laws

noncomputable section

namespace Cert.KernelIdeal.Dist

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The first argument (the points x) as launched on core `c`. -/
abbrev xArr (c : Dev nD) : S8192x128.Idx → EReal := m ((c : Thread nD τ).loc main_arg0)
/-- The second argument (the points y) as launched on core `c`. -/
abbrev yArr (c : Dev nD) : S8192x128.Idx → EReal := m ((c : Thread nD τ).loc main_arg1)

/-- The column operand as the region finds it: the row sums of the first argument's squares, one per row. -/
theorem colNorms_eq (c : Dev nD) : (V m c main_v2 : S8192x1.Idx → EReal) =
    broadcastInDim S8192x1 ![0] bcast_S8192_S8192x1_0
      (Host.reduceAdd (F := Ideal) (mulf (xArr m c) (xArr m c)) (constant S_ .f32 0x00000000#32) reducesTo_S8192x128_S8192_d1 h_S_) := by
  dsimp only [V, hostOps0]; after_results

/-- The row operand as the region finds it: the row sums of the second argument's squares, laid along the second axis. -/
theorem rowNorms_eq (c : Dev nD) : (V m c main_v5 : S1x8192.Idx → EReal) =
    broadcastInDim S1x8192 ![1] bcast_S8192_S1x8192_1
      (Host.reduceAdd (F := Ideal) (mulf (yArr m c) (yArr m c)) (constant S_ .f32 0x00000000#32) reducesTo_S8192x128_S8192_d1 h_S_) := by
  dsimp only [V, hostOps0]; after_results

/-- A row sum of squares from the zero word, read at row `r`, is the squared norm of that row. -/
theorem sumSq_apply (A : S8192x128.Idx → EReal) (r : Fin 8192) :
    Host.reduceAdd (F := Ideal) (mulf A A) (constant S_ .f32 0x00000000#32) reducesTo_S8192x128_S8192_d1 h_S_ (ix1 r)
      = Cert.SqDist.rowSq A r := by
  simp only [Host.reduceAdd, Ideal.hostReduceAdd_def]
  rw [Ideal.hostReduceAdd_single reducesTo_S8192x128_S8192_d1 (by decide)]
  unfold Cert.SqDist.rowSq
  refine congrArg₂ (· + ·) rfl (Finset.sum_congr rfl fun k _ => ?_)
  exact congrArg (fun i => A i * A i) (funext fun a => Fin.ext (by match a with | ⟨0, _⟩ => rfl | ⟨1, _⟩ => rfl))

/-- The column operand at (r, 0) is the squared norm of row `r` of the first argument. -/
theorem colNorms_apply (c : Dev nD) (r : Fin 8192) :
    (V m c main_v2 : S8192x1.Idx → EReal) (ix2 r (0 : Fin 1)) = Cert.SqDist.rowSq (xArr m c) r := by
  rw [colNorms_eq]
  refine (broadcastInDim_apply _ bcast_S8192_S8192x1_0 _ (ix2 r (0 : Fin 1)) (ix1 r) (fun a => match a with
    | ⟨0, _⟩ => by show r.val = if (8192 : Nat) = 1 then 0 else r.val; rw [if_neg (by decide)])).trans ?_
  exact sumSq_apply (xArr m c) r

/-- The row operand at (0, r) is the squared norm of row `r` of the second argument. -/
theorem rowNorms_apply (c : Dev nD) (r : Fin 8192) :
    (V m c main_v5 : S1x8192.Idx → EReal) (ix2 (0 : Fin 1) r) = Cert.SqDist.rowSq (yArr m c) r := by
  rw [rowNorms_eq]
  refine (broadcastInDim_apply _ bcast_S8192_S1x8192_1 _ (ix2 (0 : Fin 1) r) (ix1 r) (fun a => match a with
    | ⟨0, _⟩ => by show r.val = if (8192 : Nat) = 1 then 0 else r.val; rw [if_neg (by decide)])).trans ?_
  exact sumSq_apply (yArr m c) r

end Cert.KernelIdeal.Dist

end
-- ==== Proof.LibBroadcastCol.lean ====
/-
  A column broadcast over many columns, read at an index (the companion of the library's one-row form
  `ValueIdx.broadcastTo_1b_ab_apply`).
-/
import Idealize.ShloMosaic.Lib.Pipeline.Value
import Idealize.ShloMosaic.Lib.ValueIdx

namespace Idealize.ShloMosaic.ValueIdx

open Idealize.ShloMosaic

/-- An `[a, 1]` array broadcast to `[a, b]` reads, at `(p, c)`, the operand's one column at row `p`: the unit axis
    is read at `0` whatever `c` is, the other axis at the index's own coordinate. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPoint.lean ====
/-
  The kernel body's arithmetic at one entry of its 512 × 2048 output block. From the four loaded blocks — 512 rows
  of x, 2048 rows of y, a 512 × 1 column of squared norms and a 1 × 2048 row of squared norms — entry (p, q) is
      (col(p, 0) + row(0, q)) − 2 · Σ_k xblk(p, k) · yblk(q, k):
  the column and the row are each broadcast over the block (the casts to their own shapes change nothing), the
  rounding of the two operands to bf16 is the identity on extended reals, and the matrix product into the zero
  accumulator, contracting the last axis of both operands, is the plain sum of products.
-/
import proofs.«144518_j11630771438032_1_alg».proof.Proof.Gen.KernelIdeal.Skeleton
import proofs.«144518_j11630771438032_1_alg».proof.Proof.SqDist
import Idealize.ShloMosaic.Lib.Pipeline.Value
import Idealize.ShloMosaic.Lib.ValueIdx
import Idealize.ShloMosaic.Lib.ValueLayout
import proofs.«144518_j11630771438032_1_alg».proof.Proof.LibBroadcastCol
import Idealize.ShloMosaic.PureOps.Ideal.Laws

noncomputable section

namespace Cert.KernelIdeal.Dist

open Cert.KernelIdeal Cert.KernelIdeal.Gen Idealize.ShloMosaic Idealize.ShloMosaic.ValueIdx

/-! ## The contraction's operand indices -/

theorem lhs_dot_0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem lhs_dot_1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
theorem rhs_dot_0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem rhs_dot_1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- The block product into the zero accumulator, at (p, q): row p of the left block against row q of the right. -/
theorem blockProduct_apply (a : FVec Ideal S512x128 .bf16) (b : FVec Ideal S2048x128 .bf16) (p : Fin 512) (q : Fin 2048) :
    matmul dot_S512x128_S2048x128_S512x2048_1_1_0_0_n_n none a b (constant S512x2048 .f32 0x00000000#32) (ix2 p q)
      = ∑ k : Fin 128, a (ix2 p k) * b (ix2 q k) := by
  simp only [matmul]
  rw [Ideal.matmul_constant_zero_apply, ← Equiv.sum_comp (ValueIdx.contrEquiv1 dot_S512x128_S2048x128_S512x2048_1_1_0_0_n_n 128 rfl rfl).symm]
  refine Finset.sum_congr rfl fun k _ => ?_
  have hk := ValueIdx.contrEquiv1_symm_val dot_S512x128_S2048x128_S512x2048_1_1_0_0_n_n 128 rfl rfl k
  have el : dot_S512x128_S2048x128_S512x2048_1_1_0_0_n_n.lhsIdx (ix2 p q) ((ValueIdx.contrEquiv1 dot_S512x128_S2048x128_S512x2048_1_1_0_0_n_n 128 rfl rfl).symm k) = ix2 p k := funext fun ax => Fin.ext (by
    match ax with
    | ⟨0, _⟩ => exact lhs_dot_0 _ _
    | ⟨1, _⟩ => exact (lhs_dot_1 _ _).trans hk)
  have er : dot_S512x128_S2048x128_S512x2048_1_1_0_0_n_n.rhsIdx (ix2 p q) ((ValueIdx.contrEquiv1 dot_S512x128_S2048x128_S512x2048_1_1_0_0_n_n 128 rfl rfl).symm k) = ix2 q k := funext fun ax => Fin.ext (by
    match ax with
    | ⟨0, _⟩ => exact rhs_dot_0 _ _
    | ⟨1, _⟩ => exact (rhs_dot_1 _ _).trans hk)
  rw [el, er]

/-! ## The body's one stored value at an entry -/

theorem payload_apply (x0 : Vec Ideal S512x128 .f32) (x1 : Vec Ideal S2048x128 .f32) (x2 : Vec Ideal S512x1 .f32) (x3 : Vec Ideal S1x2048 .f32)
    (p : Fin 512) (q : Fin 2048) :
    k0_pay1 x0 x1 x2 x3 (ix2 p q)
      = (x2 (ix2 p (0 : Fin 1)) + x3 (ix2 (0 : Fin 1) q)) - Ideal.ofBits .f32 0x40000000#32 * ∑ k : Fin 128, x0 (ix2 p k) * x1 (ix2 q k) := by
  unfold k0_pay1
  rw [subf_apply, addf_apply, mulf_apply, broadcast_apply, shapeCast_self, shapeCast_self, blockProduct_apply,
    broadcastTo_a1_ab_apply, broadcastTo_1b_ab_apply]
  rfl

/-- One entry of the output block against the whole arrays: when row `p` of the x block is row `n` of `X`, row `q` of the
    y block is row `m'` of `Y`, and the column and row operands hold the squared norms of those rows, the body's value
    at (p, q) is the squared distance of row `n` of `X` from row `m'` of `Y`. -/
theorem entry_eq (X Y : S8192x128.Idx → EReal) (x0 : Vec Ideal S512x128 .f32) (x1 : Vec Ideal S2048x128 .f32)
    (x2 : Vec Ideal S512x1 .f32) (x3 : Vec Ideal S1x2048 .f32) (n m' : Fin 8192) (p : Fin 512) (q : Fin 2048)
    (h0 : ∀ k : Fin 128, x0 (ix2 p k) = X (ix2 n k)) (h1 : ∀ k : Fin 128, x1 (ix2 q k) = Y (ix2 m' k))
    (h2 : x2 (ix2 p (0 : Fin 1)) = Cert.SqDist.rowSq X n) (h3 : x3 (ix2 (0 : Fin 1) q) = Cert.SqDist.rowSq Y m') :
    k0_pay1 x0 x1 x2 x3 (ix2 p q) = Cert.SqDist.sqDist X Y (ix2 n m') := by
  rw [payload_apply, h2, h3]
  simp only [h0, h1]
  rfl

end Cert.KernelIdeal.Dist

end
-- ==== Proof.KernelBlocks.lean ====
/-
  From the output's blocks to the whole array. The grid has 16 × 4 points; point (i, j) stages rows 512·i … 512·i + 511
  of x (and of the column of squared norms), rows 2048·j … 2048·j + 2047 of y (and that stretch of the row of squared
  norms), and writes back the 512 × 2048 block of the output at block index (i, j). So entry (p, q) of what point
  (i, j) writes is the squared distance of row 512·i + p of x from row 2048·j + q of y — the block (i, j) of the
  squared-distance function of the two arguments — and, the 64 blocks tiling the 8192 × 8192 array, the array ends
  holding that function.
-/
import proofs.«144518_j11630771438032_1_alg».proof.Proof.Gen.KernelIdeal.Value
import proofs.«144518_j11630771438032_1_alg».proof.Proof.KernelNorms
import proofs.«144518_j11630771438032_1_alg».proof.Proof.KernelPoint

noncomputable section

namespace Cert.KernelIdeal.Dist

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The printed index maps over the 64 grid points: the x block and the column of norms move with the output's first
    block coordinate, the y block and the row of norms with its second, every other block coordinate is 0; the
    output's block coordinates stay below 16 and 4. -/
theorem blockIndices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 15 ∧ win0_4.index t (1 : Fin 2) ≤ 3 :=
  (by decide +kernel : ∀ t : Fin grid0.N, _)

/-- Every block index (i, j) with i < 16 and j < 4 is some grid point's. -/
theorem blockIndices_onto : ∀ (q0 : Fin 16) (q1 : Fin 4), ∃ t : Fin cfg0.N, win0_4.index t = ![q0.val, q1.val] :=
  (by decide +kernel : ∀ (q0 : Fin 16) (q1 : Fin 4), ∃ t : Fin grid0.N, win0_4.index t = ![q0.val, q1.val])

/-- What point `t` writes back is block `t` of the squared-distance function of the two arguments. -/
theorem flushed_eq (c : Dev nD) (t : Fin cfg0.N) :
    (dats m 0 c).flushed 4 t
      = ((cfg0.win 4).blk t).view.read (Elt Ideal) (Cert.SqDist.sqDist (xArr m c) (yArr m c)) := by
  rw [Cert.KernelIdeal.Value.flushed4]
  unfold out0_4
  rw [View.canon_unit_zero zeroOffsets]
  simp only [View.ld_unit_zero (S := S512x128) zeroOffsets, View.ld_unit_zero (S := S2048x128) zeroOffsets,
    View.ld_unit_zero (S := S512x1) zeroOffsets, View.ld_unit_zero (S := S1x2048) zeroOffsets]
  obtain ⟨e00, e01, e10, e11, e20, e21, e30, e31, b0, b1⟩ := blockIndices t
  funext j
  have hj0 : (j 0).val < 512 := (j 0).isLt
  have hj1 : (j 1).val < 2048 := (j 1).isLt
  show k0_pay1 (iblk m c 0 t) (iblk m c 1 t) (iblk m c 2 t) (iblk m c 3 t) j
    = Cert.SqDist.sqDist (xArr m c) (yArr m c) (((cfg0.win 4).blk t).view.emb j)
  -- the array row of x and the array row of y that entry j of this block pairs
  let n : Fin 8192 := ⟨win0_4.index t (0 : Fin 2) * 512 + (j 0).val, by omega⟩
  let m' : Fin 8192 := ⟨win0_4.index t (1 : Fin 2) * 2048 + (j 1).val, by omega⟩
  have hemb : ((cfg0.win 4).blk t).view.emb j = ix2 n m' := funext fun a => Fin.ext (by
    match a with
    | ⟨0, _⟩ => show win0_4.index t (0 : Fin 2) * 512 + 1 * (j 0).val = win0_4.index t (0 : Fin 2) * 512 + (j 0).val; omega
    | ⟨1, _⟩ => show win0_4.index t (1 : Fin 2) * 2048 + 1 * (j 1).val = win0_4.index t (1 : Fin 2) * 2048 + (j 1).val; omega)
  have hj : (j : S512x2048.Idx) = ix2 (j 0) (j 1) := eq_ix2 (n0 := 512) (n1 := 2048) j
  rw [hemb]
  refine (congrArg (k0_pay1 (iblk m c 0 t) (iblk m c 1 t) (iblk m c 2 t) (iblk m c 3 t)) hj).trans ?_
  refine entry_eq (xArr m c) (yArr m c) (iblk m c 0 t) (iblk m c 1 t) (iblk m c 2 t) (iblk m c 3 t) n m' (j 0) (j 1) ?_ ?_ ?_ ?_
  · -- row (j 0) of the x block is row n of x
    intro k
    show V m c main_arg0 (((cfg0.win 0).blk t).view.emb (ix2 (j 0) k)) = xArr m c (ix2 n k)
    rw [V_main_arg0]
    refine congrArg (xArr m c) (funext fun a => Fin.ext ?_)
    match a with
    | ⟨0, _⟩ => show win0_0.index t (0 : Fin 2) * 512 + 1 * (j 0).val = win0_4.index t (0 : Fin 2) * 512 + (j 0).val; omega
    | ⟨1, _⟩ => show win0_0.index t (1 : Fin 2) * 128 + 1 * k.val = k.val; omega
  · -- row (j 1) of the y block is row m' of y
    intro k
    show V m c main_arg1 (((cfg0.win 1).blk t).view.emb (ix2 (j 1) k)) = yArr m c (ix2 m' k)
    rw [V_main_arg1]
    refine congrArg (yArr m c) (funext fun a => Fin.ext ?_)
    match a with
    | ⟨0, _⟩ => show win0_1.index t (0 : Fin 2) * 2048 + 1 * (j 1).val = win0_4.index t (1 : Fin 2) * 2048 + (j 1).val; omega
    | ⟨1, _⟩ => show win0_1.index t (1 : Fin 2) * 128 + 1 * k.val = k.val; omega
  · -- the column block at (j 0, 0) is the column operand at (n, 0): the squared norm of row n of x
    show V m c main_v2 (((cfg0.win 2).blk t).view.emb (ix2 (j 0) (0 : Fin 1))) = Cert.SqDist.rowSq (xArr m c) n
    refine (congrArg (V m c main_v2 : S8192x1.Idx → EReal) (funext fun a => Fin.ext ?_)).trans (colNorms_apply m c n)
    match a with
    | ⟨0, _⟩ => show win0_2.index t (0 : Fin 2) * 512 + 1 * (j 0).val = win0_4.index t (0 : Fin 2) * 512 + (j 0).val; omega
    | ⟨1, _⟩ => show win0_2.index t (1 : Fin 2) * 1 + 1 * 0 = 0; omega
  · -- the row block at (0, j 1) is the row operand at (0, m'): the squared norm of row m' of y
    show V m c main_v5 (((cfg0.win 3).blk t).view.emb (ix2 (0 : Fin 1) (j 1))) = Cert.SqDist.rowSq (yArr m c) m'
    refine (congrArg (V m c main_v5 : S1x8192.Idx → EReal) (funext fun a => Fin.ext ?_)).trans (rowNorms_apply m c m')
    match a with
    | ⟨0, _⟩ => show win0_3.index t (0 : Fin 2) * 1 + 1 * 0 = 0; omega
    | ⟨1, _⟩ => show win0_3.index t (1 : Fin 2) * 2048 + 1 * (j 1).val = win0_4.index t (1 : Fin 2) * 2048 + (j 1).val; omega

/-- An index of the output array lies in point `t`'s block iff each coordinate lies in the block's range on its axis. -/
theorem mem_block (t : Fin cfg0.N) (i : S8192x8192.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v6).slice (win0_4.rect t)).set ↔ _
  rw [View.set_slice_whole, Rect.mem_set_unit]
  exact Iff.rfl

/-- The 64 blocks tile the output: entry (r, s) is in the block of the point with block index (r / 512, s / 2048). -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := blockIndices_onto ⟨(i 0).val / 512, by omega⟩ ⟨(i 1).val / 2048, by omega⟩
  have q0 : win0_4.index t (0 : Fin 2) = (i 0).val / 512 := congrFun ht 0
  have q1 : win0_4.index t (1 : Fin 2) = (i 1).val / 2048 := congrFun ht 1
  refine ⟨t, flush0_4 t, ?_⟩
  rw [mem_block]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- The output array after the run is the squared-distance function of the two arguments as launched. -/
theorem final (c : Dev nD) :
    (dats m 0 c).arrAt 4 cfg0.N = Cert.SqDist.sqDist (xArr m c) (yArr m c) :=
  (dats m 0 c).arrAt_eq_of_cover 4 (Cert.SqDist.sqDist (xArr m c) (yArr m c)) (fun t _ => flushed_eq m c t) covered

/-- The kernel's run, read: every weakly fair execution terminates with the result array at the squared-distance
    function of the arguments, the arguments unchanged. -/
theorem run : θ_run defs (onTc (τ := τ) (main (F := Ideal))) ⟨m, fun _ => 0, ρ⟩ fun r => ∀ c : Dev nD,
      r.2.mem ((c : Thread nD τ).loc main_v6) = Cert.SqDist.sqDist (xArr m c) (yArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Dist

end
-- ==== Proof.lean ====
/-
  Pairwise squared Euclidean distances, d(n, m) = |x_n|² + |y_m|² − 2⟨x_n, y_m⟩, of 8192 points x against 8192 points y
  in dimension 128: a tiled kernel against a plain whole-array computation.

  The kernel computes the two vectors of squared norms before its one region (row sums of squares, laid out as a
  column and as a row), and at grid point (i, j) of 16 × 4 forms the 512 × 2048 block of the result from 512 rows of
  x, 2048 rows of y and the matching stretches of the two norm vectors: the operands are rounded to bf16, multiplied
  with the last axis of both contracted into a zero accumulator, doubled, and subtracted from the broadcast sum of
  the norms. The reference computes the same three terms on the whole arrays and combines them in the same order.

  Over the extended reals a change of float format is the identity and both contractions are the plain sum
  Σ_k x(n,k)·y(m,k), so both programs' results are ONE function of the two arguments (`SqDist.sqDist`): the
  reference's by reading its operations one at a time at an index (`RefDist.result_eq`), the kernel's by reading the
  body's value at an entry of a block (`Dist.entry_eq`), each block as a restriction of that function
  (`Dist.flushed_eq`), and the 64 blocks as a tiling of the result (`Dist.covered`, `Dist.final`). The two sides
  agree term by term with the same grouping, so no algebraic law — and no finiteness of the inputs — is used.
  The word-level kernel and its idealization are the same text (no rewrite was applied), so the idealization claim
  is trivial; the three frames are the generated frame runs.
-/
import proofs.«144518_j11630771438032_1_alg».proof.Defs
import proofs.«144518_j11630771438032_1_alg».proof.Proof.Gen.Kernel
import proofs.«144518_j11630771438032_1_alg».proof.Proof.Gen.Kernel.Skeleton
import proofs.«144518_j11630771438032_1_alg».proof.Proof.Gen.Kernel.Launch
import proofs.«144518_j11630771438032_1_alg».proof.Proof.Gen.Kernel.Points
import proofs.«144518_j11630771438032_1_alg».proof.Proof.Gen.Kernel.Frame
import proofs.«144518_j11630771438032_1_alg».proof.Proof.Gen.KernelIdeal
import proofs.«144518_j11630771438032_1_alg».proof.Proof.Gen.KernelIdeal.Skeleton
import proofs.«144518_j11630771438032_1_alg».proof.Proof.Gen.KernelIdeal.Launch
import proofs.«144518_j11630771438032_1_alg».proof.Proof.Gen.KernelIdeal.Points
import proofs.«144518_j11630771438032_1_alg».proof.Proof.Gen.KernelIdeal.Frame
import proofs.«144518_j11630771438032_1_alg».proof.Proof.Gen.ReferenceIdeal
import proofs.«144518_j11630771438032_1_alg».proof.Proof.Gen.Pre_finite_inputs
import proofs.«144518_j11630771438032_1_alg».proof.Proof.Gen.KernelIdeal.Value
import proofs.«144518_j11630771438032_1_alg».proof.Proof.Gen.ReferenceIdeal.Run
import proofs.«144518_j11630771438032_1_alg».proof.Proof.Gen.ReferenceIdeal.Read
import Idealize.ShloMosaic.Adequacy
import Idealize.ShloMosaic.Init
import proofs.«144518_j11630771438032_1_alg».proof.Proof.SqDist
import proofs.«144518_j11630771438032_1_alg».proof.Proof.RefDist
import proofs.«144518_j11630771438032_1_alg».proof.Proof.KernelBlocks

noncomputable section

namespace Cert.Proof

open Idealize.ShloMosaic Idealize.ShloMosaic.TcCoe Idealize.SL.Sem

/-- The word-level kernel terminates without fault and leaves its arguments unchanged (the generated frame). -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of whole-array operations: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on x and y, end with the result array at the squared-distance function
    of x and y: the kernel by its blocks tiling the array, the reference operation by operation. -/
theorem algebraic : Cert.algebraic_KernelIdeal_ReferenceIdeal := by
  intro m ρ m' ρ' _ hagree
  refine ⟨_, Cert.KernelIdeal.Dist.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v12_eq _ _).trans (Cert.ReferenceIdeal.RefDist.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
